-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel

variable [Facts]

def fn {F : FTy → Type} [FloatOps F] (main_arg0 : FVec F S16x2048x64 .f32) (main_arg1 : FVec F S16x2048x64 .f32) (main_arg2 : FVec F S16x2048x64 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  main_v13
-- ==== Kernel.lean ====
abbrev S16x2048x64 : Shape := ⟨3, ![16, 2048, 64]⟩
abbrev S1x2048x64 : Shape := ⟨3, ![1, 2048, 64]⟩
abbrev S2048x64 : Shape := ⟨2, ![2048, 64]⟩
abbrev S64x64 : Shape := ⟨2, ![64, 64]⟩

abbrev nBuf : Space → Nat
  | .hbm => 4
  | .vmem => 8
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x2048x64, .f32⟩
  | .local _ .vmem, ⟨7, _⟩ => ⟨S1x2048x64, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  dot_S2048x64_S2048x64_S64x64_0_0_1_1_n_n_wf : DotDims.WF S2048x64 S2048x64 S64x64 [0] [0] [1] [1] [] []
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S16x2048x64.size a
  hwx0_0 : ∀ i : grid0.Coords, EltTy.bits .f32 = 32 ∨ (Rect.block (s := S16x2048x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x64.size a ≤ S16x2048x64.size a
  hwx0_3 : ∀ i : grid0.Coords, EltTy.bits .f32 = 32 ∨ (Rect.block (s := S16x2048x64) S1x2048x64.size (cc0_transform_3 i) (hinb0_3 i)).WholeWords (EltTy.packing .f32)

variable [Facts₀]

def dot_S2048x64_S2048x64_S64x64_0_0_1_1_n_n : DotDims S2048x64 S2048x64 S64x64 where
  lhsContracting := [0]
  rhsContracting := [0]
  lhsNonContracting := [1]
  rhsNonContracting := [1]
  lhsBatch := []
  rhsBatch := []
  wf := dot_S2048x64_S2048x64_S64x64_0_0_1_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_arg0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .f32⟩
  | .hbm, ⟨4, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_1_1_2_2_0_0_wf : DotDims.WF S16x2048x2048 S16x2048x64 S16x2048x64 [1] [1] [2] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_1_1_2_2_0_0 : DotDims S16x2048x2048 S16x2048x64 S16x2048x64 where
  lhsContracting := [1]
  rhsContracting := [1]
  lhsNonContracting := [2]
  rhsNonContracting := [2]
  lhsBatch := [0]
  rhsBatch := [0]
  wf := dot_S16x2048x2048_S16x2048x64_S16x2048x64_1_1_2_2_0_0_wf

class Facts : Prop extends Facts₀ where

variable [Facts]
-- ==== Proof.ExchangeLaw.lean ====
/-
  Two contractions of three finite families of real numbers may be taken in either order.

  For reals  K k d,  Q k,  V d  (k and d ranging over finite index types),
      Σ_d V d · (Σ_k K k d · Q k)  =  Σ_k (Σ_d K k d · V d) · Q k :
  both sides are the triple sum Σ_d Σ_k V d · K k d · Q k, by distributing each product over the inner
  sum and exchanging the two summations. The law is about REAL numbers: on the extended reals a product
  does not distribute over a sum that holds +∞ and −∞ together, so it is stated here for extended reals
  that are images of reals, and then for extended-real families known to avoid both infinities.
-/
import Mathlib.Data.EReal.Inv
import Mathlib.Algebra.BigOperators.Group.Finset.Basic
import Mathlib.Algebra.BigOperators.Ring.Finset
import Mathlib.Tactic.Ring

namespace Cert.LinearAttention

/-- The embedding of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exchange of the two contractions, for images of real numbers. -/
theorem contract_exchange {κ δ : Type*} [Fintype κ] [Fintype δ] (K : κ → δ → ℝ) (Q : κ → ℝ) (V : δ → ℝ) :
    ∑ d, (V d : EReal) * ∑ k, (K k d : EReal) * (Q k : EReal)
      = ∑ k, (∑ d, (K k d : EReal) * (V d : EReal)) * (Q k : EReal) := by
  have hl : ∀ d, (V d : EReal) * ∑ k, (K k d : EReal) * (Q k : EReal) = ((V d * ∑ k, K k d * Q k : ℝ) : EReal) := by
    intro d
    rw [EReal.coe_mul, coe_sum]
    simp only [EReal.coe_mul]
  have hr : ∀ k, (∑ d, (K k d : EReal) * (V d : EReal)) * (Q k : EReal) = (((∑ d, K k d * V d) * Q k : ℝ) : EReal) := by
    intro k
    rw [EReal.coe_mul, coe_sum]
    simp only [EReal.coe_mul]
  simp only [hl, hr, ← coe_sum]
  congr 1
  simp only [Finset.mul_sum, Finset.sum_mul]
  rw [Finset.sum_comm]
  exact Finset.sum_congr rfl fun k _ => Finset.sum_congr rfl fun d _ => by ring

/-- The same for extended-real families none of whose entries is +∞ or −∞: each entry is then the image of its real
    part. -/
theorem contract_exchange_of_finite {κ δ : Type*} [Fintype κ] [Fintype δ] (K : κ → δ → EReal) (Q : κ → EReal) (V : δ → EReal)
    (hK : ∀ k d, K k d ≠ ⊤ ∧ K k d ≠ ⊥) (hQ : ∀ k, Q k ≠ ⊤ ∧ Q k ≠ ⊥) (hV : ∀ d, V d ≠ ⊤ ∧ V d ≠ ⊥) :
    ∑ d, V d * ∑ k, K k d * Q k = ∑ k, (∑ d, K k d * V d) * Q k := by
  obtain ⟨K', rfl⟩ : ∃ K' : κ → δ → ℝ, K = fun k d => (K' k d : EReal) :=
    ⟨fun k d => (K k d).toReal, funext fun k => funext fun d => (EReal.coe_toReal (hK k d).1 (hK k d).2).symm⟩
  obtain ⟨Q', rfl⟩ : ∃ Q' : κ → ℝ, Q = fun k => (Q' k : EReal) :=
    ⟨fun k => (Q k).toReal, funext fun k => (EReal.coe_toReal (hQ k).1 (hQ k).2).symm⟩
  obtain ⟨V', rfl⟩ : ∃ V' : δ → ℝ, V = fun d => (V' d : EReal) :=
    ⟨fun d => (V d).toReal, funext fun d => (EReal.coe_toReal (hV d).1 (hV d).2).symm⟩
  exact contract_exchange K' Q' V'

end Cert.LinearAttention
-- ==== Proof.Spec.lean ====
/-
  Attention without a softmax, over 16 batches of 2048 positions and 64 features, written in its two orders.

  With Q, K, V of shape [16, 2048, 64], the result at batch b, position p, feature e is the contraction
      Σ_s Σ_d  K[b, s, d] · V[b, p, d] · Q[b, s, e]          (s over the 2048 positions, d over the 64 features).
  `scoresFirst` sums over d first — the 2048 × 2048 table of scores K[b, s, ·] · V[b, p, ·] — and then over s against Q;
  `momentFirst` sums over s first — the 64 × 64 matrix Σ_s K[b, s, d] · Q[b, s, e] — and then over d against V.
  They agree wherever every entry of Q, K and V is a real number (`momentFirst_eq_scoresFirst`): the exchange of two
  finite contractions.
-/
import Idealize.ShloMosaic.PureOps.Ideal
import Idealize.ShloMosaic.Lib.ValueIdx
import proofs.«150783_j2920577761328_1_alg».proof.Proof.ExchangeLaw

noncomputable section

namespace Cert.LinearAttention

open Idealize.ShloMosaic Idealize.ShloMosaic.ValueIdx

/-- The shape of each of the three inputs and of the result. -/
abbrev Tens : Shape := ⟨3, ![16, 2048, 64]⟩

/-- Scores first: at (b, p, e), the sum over positions s of (K[b, s, ·] · V[b, p, ·]) times Q[b, s, e]. -/
def scoresFirst (q k v : Tens.Idx → EReal) : Tens.Idx → EReal := fun i =>
  ∑ s : Fin 2048, (∑ d : Fin 64, k (ix3 (i 0) s d) * v (ix3 (i 0) (i 1) d)) * q (ix3 (i 0) s (i 2))

/-- Moment first: at (b, p, e), the sum over features d of V[b, p, d] times the (d, e) entry Σ_s K[b, s, d] · Q[b, s, e]. -/
def momentFirst (q k v : Tens.Idx → EReal) : Tens.Idx → EReal := fun i =>
  ∑ d : Fin 64, v (ix3 (i 0) (i 1) d) * ∑ s : Fin 2048, k (ix3 (i 0) s d) * q (ix3 (i 0) s (i 2))

/-- Every entry is a real number: neither infinity. -/
def AllReal (x : Tens.Idx → EReal) : Prop := ∀ i, x i ≠ ⊤ ∧ x i ≠ ⊥

/-- On inputs whose entries are all real, the two orders give the same array. -/
theorem momentFirst_eq_scoresFirst {q k v : Tens.Idx → EReal} (hq : AllReal q) (hk : AllReal k) (hv : AllReal v) :
    momentFirst q k v = scoresFirst q k v := by
  funext i
  exact contract_exchange_of_finite (fun s d => k (ix3 (i 0) s d)) (fun s => q (ix3 (i 0) s (i 2)))
    (fun d => v (ix3 (i 0) (i 1) d)) (fun s d => hk _) (fun s => hq _) (fun d => hv _)

end Cert.LinearAttention

end
-- ==== Proof.RefValue.lean ====
/-
  The reference computes `scoresFirst`.

  Its first product contracts the feature axis of the keys against that of the values, per batch: a [16, 2048, 2048]
  table whose (b, s, p) entry is Σ_d K[b, s, d] · V[b, p, d]. Its second contracts that table's FIRST position axis
  against the queries' position axis: at (b, p, e) the sum over s of table[b, s, p] · Q[b, s, e]. Reading both
  products at an index and naming the operand indices by their coordinates gives the specification's term.
-/
import proofs.«150783_j2920577761328_1_alg».proof.Proof.Gen.ReferenceIdeal.Read
import proofs.«150783_j2920577761328_1_alg».proof.Proof.Spec

noncomputable section

namespace Cert.LinearAttention.Ref

open Cert.ReferenceIdeal Cert.ReferenceIdeal.Gen Cert.ReferenceIdeal.Read
open Idealize.ShloMosaic Idealize.ShloMosaic.ValueIdx Cert.LinearAttention

/-- The two host products composed, as a function of (queries, keys, values), are `scoresFirst`. -/
theorem reference_eq_scoresFirst (x0 x1 x2 : (⟨S16x2048x64, .f32⟩ : BufTy).Contents (Elt Ideal)) :
    val_main_v1 (F := Ideal) x0 x1 x2 = scoresFirst x0 x1 x2 := by
  funext i
  rw [val_main_v1_apply]
  unfold scoresFirst
  refine Finset.sum_congr rfl fun s _ => ?_
  rw [val_main_v0_apply]
  -- the table's entry (b, s, p) reads keys at (b, s, d) and values at (b, p, d); the second product reads queries at (b, s, e)
  have ek : ∀ d : Fin 64, lidx_main_v0 (lidx_main_v1 i s) d = ix3 (i 0) s d := fun d =>
    funext fun a => Fin.ext (by match a with | ⟨0, _⟩ => rfl | ⟨1, _⟩ => rfl | ⟨2, _⟩ => rfl)
  have ev : ∀ d : Fin 64, ridx_main_v0 (lidx_main_v1 i s) d = ix3 (i 0) (i 1) d := fun d =>
    funext fun a => Fin.ext (by match a with | ⟨0, _⟩ => rfl | ⟨1, _⟩ => rfl | ⟨2, _⟩ => rfl)
  have eq : ridx_main_v1 i s = ix3 (i 0) s (i 2) :=
    funext fun a => Fin.ext (by match a with | ⟨0, _⟩ => rfl | ⟨1, _⟩ => rfl | ⟨2, _⟩ => rfl)
  simp only [ek, ev, eq]
  rfl

end Cert.LinearAttention.Ref

end
-- ==== Proof.LibMatmulPlain.lean ====
/-
  A plain matrix product read at an index. For dimension numbers that contract axis 1 of an [M, K] left operand with
  axis 0 of a [K, N] right operand (no batch axes), a `tpu.matmul` into the zero accumulator, over the extended reals,
  has at (p, q) the sum over k of left (p, k) times right (k, q).
-/
import Idealize.ShloMosaic.Lib.ValueIdx
import Idealize.ShloMosaic.PureOps.Ideal.Laws

noncomputable section

namespace Cert.LibMatmulPlain

open Idealize.ShloMosaic Idealize.ShloMosaic.ValueIdx

variable {M K N : Nat}

/-- The dimension numbers of a plain product, as a record over its well-formedness evidence. -/
abbrev plainDims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ := ⟨[1], [0], [0], [1], [], [], wf⟩

variable (wf : DotDims.WF (⟨2, ![M, K]⟩ : Shape) ⟨2, ![K, N]⟩ ⟨2, ![M, N]⟩ [1] [0] [0] [1] [] [])

theorem lhs_axis0 (j : (⟨2, ![M, N]⟩ : Shape).Idx) (q : (plainDims wf).contr.Idx) :
    ((plainDims wf).lhsIdx j q 0).val = (j 0).val := by
  unfold DotDims.lhsIdx
  rw [dif_neg (show ¬(0 : Fin (⟨2, ![M, K]⟩ : Shape).rank) ∈ (plainDims wf).lhsBatch from List.not_mem_nil),
    dif_pos (show (0 : Fin (⟨2, ![M, K]⟩ : Shape).rank) ∈ (plainDims wf).lhsNonContracting from List.mem_singleton.mpr rfl)]
  rfl
theorem lhs_axis1 (j : (⟨2, ![M, N]⟩ : Shape).Idx) (q : (plainDims wf).contr.Idx) :
    ((plainDims wf).lhsIdx j q 1).val = (q ⟨0, Nat.one_pos⟩).val :=
  (plainDims wf).lhsIdx_val_of_single rfl j q
theorem rhs_axis0 (j : (⟨2, ![M, N]⟩ : Shape).Idx) (q : (plainDims wf).contr.Idx) :
    ((plainDims wf).rhsIdx j q 0).val = (q ⟨0, Nat.one_pos⟩).val :=
  (plainDims wf).rhsIdx_val_of_single rfl j q
theorem rhs_axis1 (j : (⟨2, ![M, N]⟩ : Shape).Idx) (q : (plainDims wf).contr.Idx) :
    ((plainDims wf).rhsIdx j q 1).val = (j 1).val := by
  unfold DotDims.rhsIdx
  rw [dif_neg (show ¬(1 : Fin (⟨2, ![K, N]⟩ : Shape).rank) ∈ (plainDims wf).rhsBatch from List.not_mem_nil),
    dif_pos (show (1 : Fin (⟨2, ![K, N]⟩ : Shape).rank) ∈ (plainDims wf).rhsNonContracting from List.mem_singleton.mpr rfl)]
  rfl

/-- THE PRODUCT AT (p, q), into the zero accumulator: the sum over the contracted coordinate. -/
theorem matmul_zero_plain_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (plainDims wf) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k := funext fun a => Fin.ext (by
    match a with
    | ⟨0, _⟩ => exact lhs_axis0 wf _ _
    | ⟨1, _⟩ => exact (lhs_axis1 wf _ _).trans hk)
  have er : (plainDims wf).rhsIdx (ix2 p q) ((contrEquiv1 (plainDims wf) K rfl rfl).symm k) = ix2 k q := funext fun a => Fin.ext (by
    match a with
    | ⟨0, _⟩ => exact (rhs_axis0 wf _ _).trans hk
    | ⟨1, _⟩ => exact rhs_axis1 wf _ _)
  rw [el, er]

end Cert.LibMatmulPlain

end
-- ==== Proof.LibMatmulT.lean ====
/-
  A product that contracts the ROW axis of both operands, read at an index, and the one-hot pooling built on it. For
  dimension numbers that contract axis 0 of a [K, M] left operand with axis 0 of a [K, N] right operand (no batch axes),
  a matrix-unit product into the zero accumulator, over the extended reals, has at (p, q) the sum over k of
  left (k, p) times right (k, q): the left operand enters transposed. When the left operand is the indicator
  [b(k) = p] of a column of 32-bit words against the column numbers, converted to a float, the product at (p, q) is the
  sum of right (k, q) over the rows k whose word, read signed, is p: 1 * x = x and 0 * x = 0 for every extended real.
-/
import Idealize.ShloMosaic.Lib.ValueIdx
import Idealize.ShloMosaic.Lib.Pipeline.Value
import Idealize.ShloMosaic.PureOps.Ideal.Laws

noncomputable section

namespace Cert.LibMatmulT

open Idealize.ShloMosaic Idealize.ShloMosaic.ValueIdx

variable {M K N : Nat}

/-- The dimension numbers of a product contracting both operands' axis 0, as a record over its well-formedness evidence. -/
abbrev tDims (wf : DotDims.WF (⟨2, ![K, M]⟩ : Shape) ⟨2, ![K, N]⟩ ⟨2, ![M, N]⟩ [0] [0] [1] [1] [] []) :
    DotDims (⟨2, ![K, M]⟩ : Shape) ⟨2, ![K, N]⟩ ⟨2, ![M, N]⟩ := ⟨[0], [0], [1], [1], [], [], wf⟩

variable (wf : DotDims.WF (⟨2, ![K, M]⟩ : Shape) ⟨2, ![K, N]⟩ ⟨2, ![M, N]⟩ [0] [0] [1] [1] [] [])

theorem lhs_axis0 (j : (⟨2, ![M, N]⟩ : Shape).Idx) (q : (tDims wf).contr.Idx) :
    ((tDims wf).lhsIdx j q 0).val = (q ⟨0, Nat.one_pos⟩).val :=
  (tDims wf).lhsIdx_val_of_single rfl j q
theorem lhs_axis1 (j : (⟨2, ![M, N]⟩ : Shape).Idx) (q : (tDims wf).contr.Idx) :
    ((tDims wf).lhsIdx j q 1).val = (j 0).val := by
  unfold DotDims.lhsIdx
  rw [dif_neg (show ¬(1 : Fin (⟨2, ![K, M]⟩ : Shape).rank) ∈ (tDims wf).lhsBatch from List.not_mem_nil),
    dif_pos (show (1 : Fin (⟨2, ![K, M]⟩ : Shape).rank) ∈ (tDims wf).lhsNonContracting from List.mem_singleton.mpr rfl)]
  rfl
theorem rhs_axis0 (j : (⟨2, ![M, N]⟩ : Shape).Idx) (q : (tDims wf).contr.Idx) :
    ((tDims wf).rhsIdx j q 0).val = (q ⟨0, Nat.one_pos⟩).val :=
  (tDims wf).rhsIdx_val_of_single rfl j q
theorem rhs_axis1 (j : (⟨2, ![M, N]⟩ : Shape).Idx) (q : (tDims wf).contr.Idx) :
    ((tDims wf).rhsIdx j q 1).val = (j 1).val := by
  unfold DotDims.rhsIdx
  rw [dif_neg (show ¬(1 : Fin (⟨2, ![K, N]⟩ : Shape).rank) ∈ (tDims wf).rhsBatch from List.not_mem_nil),
    dif_pos (show (1 : Fin (⟨2, ![K, N]⟩ : Shape).rank) ∈ (tDims wf).rhsNonContracting from List.mem_singleton.mpr rfl)]
  rfl

/-- THE PRODUCT AT (p, q), into the zero accumulator: the sum over the contracted row coordinate. -/
theorem matmul_zero_t_apply {φ₁ φ₂ : FTy} (prec : Option ContractPrecision)
    (lhs : FVec Ideal ⟨2, ![K, M]⟩ φ₁) (rhs : FVec Ideal ⟨2, ![K, N]⟩ φ₂) (p : Fin M) (q : Fin N) :
    FloatOps.matmul (tDims wf) prec lhs rhs (constant ⟨2, ![M, N]⟩ .f32 0x00000000#32) (ix2 p q)
      = ∑ k : Fin K, lhs (ix2 k p) * rhs (ix2 k q) := by
  rw [Ideal.matmul_constant_zero_apply, ← Equiv.sum_comp (contrEquiv1 (tDims wf) K rfl rfl).symm]
  refine Finset.sum_congr rfl fun k _ => ?_
  have hk := contrEquiv1_symm_val (tDims wf) K rfl rfl k
  have el : (tDims wf).lhsIdx (ix2 p q) ((contrEquiv1 (tDims wf) K rfl rfl).symm k) = ix2 k p := funext fun a => Fin.ext (by
    match a with
    | ⟨0, _⟩ => exact (lhs_axis0 wf _ _).trans hk
    | ⟨1, _⟩ => exact lhs_axis1 wf _ _)
  have er : (tDims wf).rhsIdx (ix2 p q) ((contrEquiv1 (tDims wf) K rfl rfl).symm k) = ix2 k q := funext fun a => Fin.ext (by
    match a with
    | ⟨0, _⟩ => exact (rhs_axis0 wf _ _).trans hk
    | ⟨1, _⟩ => exact rhs_axis1 wf _ _)
  rw [el, er]

/-! ## A column laid along the rows, and a word against a small number -/

/-- A column `[a, 1]` broadcast to `[a, b]` reads, at `(p, q)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The word of a number below 2^31, read signed, is the number. -/
theorem toInt_ofNat_small (g : Nat) (hg : g < 2147483648) : (BitVec.ofNat 32 g).toInt = (g : Int) := by
  have h32 : (2 : Nat) ^ 32 = 4294967296 := by norm_num
  have hn : (BitVec.ofNat 32 g).toNat = g := by
    rw [BitVec.toNat_ofNat, h32]; exact Nat.mod_eq_of_lt (by omega)
  have hlt : 2 * (BitVec.ofNat 32 g).toNat < 2 ^ 32 := by rw [hn, h32]; omega
  rw [BitVec.toInt_eq_toNat_of_lt hlt, hn]

/-- A 32-bit word is the word of such a number iff its signed value is the number. -/
theorem word_eq_iff (x : BitVec 32) (g : Nat) (hg : g < 2147483648) : x = BitVec.ofNat 32 g ↔ x.toInt = (g : Int) :=
  ⟨fun h => by rw [h]; exact toInt_ofNat_small g hg, fun h => BitVec.eq_of_toInt_eq (h.trans (toInt_ofNat_small g hg).symm)⟩

/-- The equality bit of two words, widened to 32 bits and read signed, is 1 or 0. -/
theorem onehot_word (x y : BitVec 32) : ((IntOp.cmpi .eq x y).setWidth 32).toInt = if x = y then 1 else 0 := by
  show ((BitVec.ofBool (x == y)).setWidth 32).toInt = _
  by_cases h : x = y
  · rw [if_pos h, show (x == y) = true from beq_iff_eq.mpr h]; decide
  · rw [if_neg h, show (x == y) = false from beq_eq_false_iff_ne.mpr h]; decide

/-! ## The pooling product -/

/-- THE ONE-HOT POOLING AT (g, d): the accumulator plus the sum of x (n, d) over the rows n whose word, read signed, is g. -/
theorem onehot_pool_apply (x : FVec Ideal ⟨2, ![K, N]⟩ .f32) (b : IVec ⟨2, ![K, 1]⟩ 32) (acc : FVec Ideal ⟨2, ![M, N]⟩ .f32)
    (hio : (⟨2, ![K, M]⟩ : Shape).Iotas .tc 32 [1]) (hbc : (⟨2, ![K, 1]⟩ : Shape).Broadcasts ⟨2, ![K, M]⟩)
    (h1 : 1 < 32) (hbf : FTy.bits .bf16 < FTy.bits .f32) (hM : M ≤ 2147483648) (g : Fin M) (d : Fin N) :
    addf acc (matmul (tDims wf) none
        (truncf .bf16 (sitofp (F := Ideal) .f32 (extui 32 (cmpi .eq (broadcastTo ⟨2, ![K, M]⟩ b hbc) (iota .tc ⟨2, ![K, M]⟩ 32 [1] hio)) h1)) hbf)
        (truncf .bf16 x hbf) (constant ⟨2, ![M, N]⟩ .f32 0x00000000#32)) (ix2 g d)
      = acc (ix2 g d) + ∑ n : Fin K, if (b (ix2 n (0 : Fin 1))).toInt = (g.val : Int) then x (ix2 n d) else 0 := by
  have hg : g.val < 2147483648 := lt_of_lt_of_le g.isLt hM
  rw [addf_apply]
  refine congrArg (acc (ix2 g d) + ·) ?_
  refine (matmul_zero_t_apply wf none _ _ g d).trans ?_
  refine Finset.sum_congr rfl fun n _ => ?_
  show ((((IntOp.cmpi .eq (broadcastTo ⟨2, ![K, M]⟩ b hbc (ix2 n g)) (iota .tc ⟨2, ![K, M]⟩ 32 [1] hio (ix2 n g))).setWidth 32).toInt : ℝ) : EReal)
      * x (ix2 n d) = _
  rw [iota_single_apply, broadcastTo_a1_ab_apply b hbc n g, onehot_word]
  show (((if b (ix2 n (0 : Fin 1)) = BitVec.ofNat 32 g.val then (1 : Int) else 0 : Int) : ℝ) : EReal) * x (ix2 n d) = _
  by_cases hw : b (ix2 n (0 : Fin 1)) = BitVec.ofNat 32 g.val
  · rw [if_pos hw, if_pos ((word_eq_iff _ _ hg).mp hw)]
    simp only [Int.cast_one, EReal.coe_one, one_mul]
  · rw [if_neg hw, if_neg (fun h => hw ((word_eq_iff _ _ hg).mpr h))]
    simp only [Int.cast_zero, EReal.coe_zero, zero_mul]

end Cert.LibMatmulT

end
-- ==== Proof.Body.lean ====
/-
  What the kernel body stores, entry by entry.

  At one grid point the body holds one batch's queries, keys and values, each a [1, 2048, 64] block. It forms the
  64 × 64 matrix  M[d, e] = Σ_s keys[s, d] · queries[s, e]  (a product contracting the POSITION axis of both operands,
  so the keys enter transposed), then the 2048 × 64 product  values · M, and stores that under a leading unit axis.
  So the stored entry (0, p, e) is  Σ_d values[p, d] · Σ_s keys[s, d] · queries[s, e]: the specification's
  moment-first order, read inside one batch.
-/
import proofs.«150783_j2920577761328_1_alg».proof.Proof.Gen.KernelIdeal.Skeleton
import proofs.«150783_j2920577761328_1_alg».proof.Proof.LibMatmulPlain
import proofs.«150783_j2920577761328_1_alg».proof.Proof.LibMatmulT
import Idealize.ShloMosaic.Lib.ValueLayout

noncomputable section

namespace Cert.LinearAttention.Body

open Cert.KernelIdeal Cert.KernelIdeal.Gen
open Idealize.ShloMosaic Idealize.ShloMosaic.ValueIdx

/-- The stored block at (u, p, e), from the three loaded blocks (queries, keys, values, in the windows' order). -/
theorem payload_apply (xq xk xv : Vec Ideal S1x2048x64 .f32) (u : Fin 1) (p : Fin 2048) (e : Fin 64) :
    k0_pay1 (F := Ideal) xq xk xv (ix3 u p e)
      = ∑ d : Fin 64, xv (ix3 (0 : Fin 1) p d) * ∑ s : Fin 2048, xk (ix3 (0 : Fin 1) s d) * xq (ix3 (0 : Fin 1) s e) := by
  unfold k0_pay1
  -- the leading unit axis added by the last cast
  refine (shapeCast_ab_1ab_apply _ _ u p e).trans ?_
  -- values · M at (p, e): the sum over the feature d
  refine (Cert.LibMatmulPlain.matmul_zero_plain_apply Facts₀.dot_S2048x64_S64x64_S2048x64_1_0_0_1_n_n_wf none _ _ p e).trans ?_
  refine Finset.sum_congr rfl fun d _ => ?_
  -- the values block with its unit axis dropped, and M at (d, e): the sum over the position s
  refine congrArg₂ (· * ·) (shapeCast_1ab_ab_apply _ _ p d) ?_
  refine (Cert.LibMatmulT.matmul_zero_t_apply Facts₀.dot_S2048x64_S2048x64_S64x64_0_0_1_1_n_n_wf none _ _ d e).trans ?_
  refine Finset.sum_congr rfl fun s _ => ?_
  exact congrArg₂ (· * ·) (shapeCast_1ab_ab_apply _ _ s d) (shapeCast_1ab_ab_apply _ _ s e)

end Cert.LinearAttention.Body

end
-- ==== Proof.Blocks.lean ====
/-
  From the blocks the grid points write back to the whole result array.

  The grid has one point per batch. At point t every window — queries, keys, values and the result — is on the block
  (t, 0, 0): batch t, all 2048 positions, all 64 features. So entry (0, s, e) of an input block at point t is entry
  (t, s, e) of its array, the block point t writes back is batch t of `momentFirst` of the three input arrays, and the
  sixteen blocks cover the result array: index (b, p, e) lies in the block of point b. Hence the array after the run is
  `momentFirst` of the inputs.
-/
import proofs.«150783_j2920577761328_1_alg».proof.Proof.Gen.KernelIdeal.Value
import proofs.«150783_j2920577761328_1_alg».proof.Proof.Body
import proofs.«150783_j2920577761328_1_alg».proof.Proof.Spec

noncomputable section

namespace Cert.LinearAttention.Blocks

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.LinearAttention

variable (m : (ℓ : Loc nD τ sig) → Buf (Elt Ideal) ℓ) (ρ : Dev nD → PrngReg)

theorem hz : (![0, 0, 0] : Fin 3 → Nat) = fun _ => 0 := funext fun a => by fin_cases a <;> rfl

/-- A grid point is a batch number. -/
theorem point_lt (t : Fin cfg0.N) : t.val < 16 := lt_of_lt_of_eq t.isLt N_0

/-- At grid point t every window's block index is (t, 0, 0) (decided over the sixteen points). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- The queries' block at point t, at (0, s, e), is the queries at (t, s, e). -/
theorem qblock_apply (c : Dev nD) (t : Fin cfg0.N) (s : Fin 2048) (e : Fin 64) :
    (iblk m c 0 t : Vec Ideal S1x2048x64 .f32) (ix3 (0 : Fin 1) s e)
      = (V m c main_arg0 : S16x2048x64.Idx → EReal) (ix3 (⟨t.val, point_lt t⟩ : Fin 16) s e) := by
  obtain ⟨⟨h0, h1, h2⟩, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = t.val; omega
  | ⟨1, _⟩ => show win0_0.index t (1 : Fin 3) * 2048 + 1 * s.val = s.val; omega
  | ⟨2, _⟩ => show win0_0.index t (2 : Fin 3) * 64 + 1 * e.val = e.val; omega

/-- The keys' block at point t, at (0, s, d), is the keys at (t, s, d). -/
theorem kblock_apply (c : Dev nD) (t : Fin cfg0.N) (s : Fin 2048) (d : Fin 64) :
    (iblk m c 1 t : Vec Ideal S1x2048x64 .f32) (ix3 (0 : Fin 1) s d)
      = (V m c main_arg1 : S16x2048x64.Idx → EReal) (ix3 (⟨t.val, point_lt t⟩ : Fin 16) s d) := by
  obtain ⟨-, ⟨h0, h1, h2⟩, -⟩ := idx_facts t
  unfold iblk
  rw [View.read_apply]
  show V m c main_arg1 _ = V m c main_arg1 _
  congr 1
  funext a
  apply Fin.ext
  match a with
  | ⟨0, _⟩ => show win0_1.index t (0 : Fin 3) * 1 + 1 * 0 = t.val; omega
  | ⟨1, _⟩ => show win0_1.index t (1 : Fin 3) * 2048 + 1 * s.val = s.val; omega
  | ⟨2, _⟩ => show win0_1.index t (2 : Fin 3) * 64 + 1 * d.val = d.val; omega

/-- The values' block at point t, at (0, p, d), is the values at (t, p, d). -/
theorem vblock_apply (c : Dev nD) (t : Fin cfg0.N) (p : Fin 2048) (d : Fin 64) :
    (iblk m c 2 t : Vec Ideal S1x2048x64 .f32) (ix3 (0 : Fin 1) p d)
      = (V m c main_arg2 : S16x2048x64.Idx → EReal) (ix3 (⟨t.val, point_lt t⟩ : Fin 16) p d) := by
  obtain ⟨-, -, ⟨h0, h1, h2⟩, -⟩ := idx_facts t
  unfold iblk
  rw [View.read_apply]
  show V m c main_arg2 _ = V m c main_arg2 _
  congr 1
  funext a
  apply Fin.ext
  match a with
  | ⟨0, _⟩ => show win0_2.index t (0 : Fin 3) * 1 + 1 * 0 = t.val; omega
  | ⟨1, _⟩ => show win0_2.index t (1 : Fin 3) * 2048 + 1 * p.val = p.val; omega
  | ⟨2, _⟩ => show win0_2.index t (2 : Fin 3) * 64 + 1 * d.val = d.val; omega

/-- WHAT POINT t WRITES BACK is batch t of `momentFirst` of the three input arrays. -/
theorem flushed_eq (c : Dev nD) (t : Fin cfg0.N) :
    (dats m 0 c).flushed 3 t = ((cfg0.win 3).blk t).view.read (Elt Ideal)
      (momentFirst (V m c main_arg0) (V m c main_arg1) (V m c main_arg2)) := by
  rw [Value.flushed3]
  unfold out0_3
  rw [View.canon_unit_zero hz]
  simp only [View.ld_unit_zero (S := S1x2048x64) hz]
  funext j
  revert j
  show ∀ j : S1x2048x64.Idx, k0_pay1 (F := Ideal) (iblk m c 0 t) (iblk m c 1 t) (iblk m c 2 t) j
      = momentFirst (V m c main_arg0) (V m c main_arg1) (V m c main_arg2) (((cfg0.win 3).blk t).view.emb j)
  intro j
  obtain ⟨u, p, e, rfl⟩ : ∃ (u : Fin 1) (p : Fin 2048) (e : Fin 64), j = ix3 u p e := ⟨j 0, j 1, j 2, eq_ix3 j⟩
  obtain ⟨-, -, -, h0, h1, h2⟩ := idx_facts t
  -- the stored entry (u, p, e) lands at (t, p, e) of the result array
  have hemb : ((cfg0.win 3).blk t).view.emb (ix3 u p e) = (ix3 (⟨t.val, point_lt t⟩ : Fin 16) p e : S16x2048x64.Idx) := by
    funext a
    apply Fin.ext
    match a with
    | ⟨0, _⟩ => show win0_3.index t (0 : Fin 3) * 1 + 1 * u.val = t.val; have := u.isLt; omega
    | ⟨1, _⟩ => show win0_3.index t (1 : Fin 3) * 2048 + 1 * p.val = p.val; omega
    | ⟨2, _⟩ => show win0_3.index t (2 : Fin 3) * 64 + 1 * e.val = e.val; omega
  rw [hemb]
  refine (Body.payload_apply (iblk m c 0 t) (iblk m c 1 t) (iblk m c 2 t) u p e).trans ?_
  unfold momentFirst
  refine Finset.sum_congr rfl fun d _ => ?_
  refine congrArg₂ (· * ·) (vblock_apply m c t p d) ?_
  refine Finset.sum_congr rfl fun s _ => ?_
  exact congrArg₂ (· * ·) (kblock_apply m c t s d) (qblock_apply m c t s e)

/-- An index of the result array is in point t's block iff each coordinate is in the block's range on its axis. -/
theorem mem_blk (t : Fin cfg0.N) (i : S16x2048x64.Idx) :
    i ∈ ((cfg0.win 3).blk t).view.set ↔ ∀ a : Fin 3, win0_3.index t a * S1x2048x64.size a ≤ (i a).val
      ∧ (i a).val < win0_3.index t a * S1x2048x64.size a + S1x2048x64.size a := by
  show i ∈ ((View.whole main_v0).slice (win0_3.rect t)).set ↔ _
  rw [View.set_slice_whole, Rect.mem_set_unit]
  exact Iff.rfl

/-- Index (b, p, e) of the result array lies in the block of point b. -/
theorem covered (i : S16x2048x64.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 64 := (i 2).isLt
  have hN : (i 0).val < cfg0.N := lt_of_lt_of_eq hi0 N_0.symm
  refine ⟨⟨(i 0).val, hN⟩, flush0_3 _, ?_⟩
  obtain ⟨-, -, -, h0', h1, h2⟩ := idx_facts ⟨(i 0).val, hN⟩
  have h0 : win0_3.index ⟨(i 0).val, hN⟩ (0 : Fin 3) = (i 0).val := h0'
  rw [mem_blk]
  intro a
  match a with
  | ⟨0, _⟩ =>
    show win0_3.index ⟨(i 0).val, hN⟩ (0 : Fin 3) * 1 ≤ (i 0).val ∧ (i 0).val < win0_3.index ⟨(i 0).val, hN⟩ (0 : Fin 3) * 1 + 1
    rw [h0]; omega
  | ⟨1, _⟩ =>
    show win0_3.index ⟨(i 0).val, hN⟩ (1 : Fin 3) * 2048 ≤ (i 1).val ∧ (i 1).val < win0_3.index ⟨(i 0).val, hN⟩ (1 : Fin 3) * 2048 + 2048
    rw [h1]; omega
  | ⟨2, _⟩ =>
    show win0_3.index ⟨(i 0).val, hN⟩ (2 : Fin 3) * 64 ≤ (i 2).val ∧ (i 2).val < win0_3.index ⟨(i 0).val, hN⟩ (2 : Fin 3) * 64 + 64
    rw [h2]; omega

/-- THE RESULT ARRAY after the run is `momentFirst` of the three input arrays. -/
theorem final (c : Dev nD) :
    (dats m 0 c).arrAt 3 cfg0.N = momentFirst (V m c main_arg0) (V m c main_arg1) (V m c main_arg2) :=
  (dats m 0 c).arrAt_eq_of_cover 3 (momentFirst (V m c main_arg0) (V m c main_arg1) (V m c main_arg2))
    (fun t _ => flushed_eq m c t) covered

/-- The kernel's run, read: the result at `momentFirst` of the inputs as launched, the inputs unchanged. -/
theorem run : θ_run defs (onTc (τ := τ) (main (F := Ideal))) ⟨m, fun _ => 0, ρ⟩ fun r => ∀ c : Dev nD,
      r.2.mem ((c : Thread nD τ).loc main_v0)
        = momentFirst (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.LinearAttention.Blocks

end
-- ==== Proof.Finite.lean ====
/-
  The precondition says every entry of the three inputs is a real number.

  It is the conjunction of three tests, one per input: every entry x has |x| < +∞, where |x| is max x (−x) on the
  extended reals and the bound is the f32 pattern of +∞. For x = +∞ the absolute value is +∞, and for x = −∞ it is
  max (−∞) (+∞) = +∞ as well, so the strict comparison fails at both infinities and holds at every real.
-/
import proofs.«150783_j2920577761328_1_alg».proof.Proof.Gen.Pre_finite_inputs
import proofs.«150783_j2920577761328_1_alg».proof.Proof.Spec
import Idealize.ShloMosaic.Lib.ReduceAll
import Idealize.ShloMosaic.Lib.ValueIdx

noncomputable section

namespace Cert.LinearAttention.Finite

open Idealize.ShloMosaic Cert.Pre_finite_inputs Cert.Pre_finite_inputs.Gen Cert.LinearAttention

/-- The rank-0 shape has one index. -/
instance : Subsingleton S_.Idx := ⟨fun a b => funext fun d => d.elim0⟩

/-- An extended real whose absolute value compares strictly below the pattern of +∞ is neither infinity. -/
theorem real_of_abs_lt (x : EReal)
    (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  have hlt : max x (-x) < ⊤ := by
    by_contra hn
    simp [Ideal.cmp, hn] at h
  constructor
  · rintro rfl; simp at hlt
  · rintro rfl; simp at hlt

/-- From the printed precondition: all three inputs have only real entries. -/
theorem allReal_of_pre (x0 x1 x2 : FVec Ideal S16x2048x64 .f32)
    (h : fn (F := Ideal) x0 x1 x2 = fun _ => 1#1) : AllReal x0 ∧ AllReal x1 ∧ AllReal x2 := by
  have h1 := congrFun h ValueIdx.ix0
  dsimp only [fn] at h1
  -- the conjunction of the three tests, then each test entry by entry
  obtain ⟨h12, h3⟩ := IntOp.andi_eq_one.1 h1
  obtain ⟨hA, hB⟩ := IntOp.andi_eq_one.1 h12
  exact ⟨fun i => real_of_abs_lt _ (Host.reduce_andi_all _ _ _ _ _ hA i),
    fun i => real_of_abs_lt _ (Host.reduce_andi_all _ _ _ _ _ hB i),
    fun i => real_of_abs_lt _ (Host.reduce_andi_all _ _ _ _ _ h3 i)⟩

end Cert.LinearAttention.Finite

end
-- ==== Proof.lean ====
/-
  Attention without a softmax, computed in two orders.

  The reference forms, per batch, the 2048 × 2048 table of scores  K[s, ·] · V[p, ·]  and contracts it with the queries
  over the first position axis:  result[b, p, e] = Σ_s (Σ_d K[b, s, d] · V[b, p, d]) · Q[b, s, e].  The kernel, one grid
  point per batch, forms the 64 × 64 matrix  Σ_s K[b, s, d] · Q[b, s, e]  and multiplies the values into it:
  result[b, p, e] = Σ_d V[b, p, d] · Σ_s K[b, s, d] · Q[b, s, e].  Both are the triple contraction
  Σ_s Σ_d K[b, s, d] · V[b, p, d] · Q[b, s, e]; they agree because a product distributes over a finite sum of REAL
  numbers and two finite sums exchange. On the extended reals that needs every entry to be real, which is exactly what
  the precondition says of the three inputs.

  The modules: ExchangeLaw (the law, over the reals inside the extended reals), Spec (the two orders as functions of the
  three arrays, and their agreement on real inputs), RefValue (the reference is the scores-first order), Body (the
  kernel body's stored block, entry by entry), Blocks (the sixteen blocks make the moment-first order on the whole
  array), Finite (the precondition read entry by entry). Here: the three frames, and the two runs set side by side.
-/
import proofs.«150783_j2920577761328_1_alg».proof.Defs
import proofs.«150783_j2920577761328_1_alg».proof.Proof.Gen.Kernel
import proofs.«150783_j2920577761328_1_alg».proof.Proof.Gen.Kernel.Frame
import proofs.«150783_j2920577761328_1_alg».proof.Proof.Gen.KernelIdeal
import proofs.«150783_j2920577761328_1_alg».proof.Proof.Gen.KernelIdeal.Frame
import proofs.«150783_j2920577761328_1_alg».proof.Proof.Gen.KernelIdeal.Value
import proofs.«150783_j2920577761328_1_alg».proof.Proof.Gen.ReferenceIdeal
import proofs.«150783_j2920577761328_1_alg».proof.Proof.Gen.ReferenceIdeal.Run
import proofs.«150783_j2920577761328_1_alg».proof.Proof.Gen.ReferenceIdeal.Read
import proofs.«150783_j2920577761328_1_alg».proof.Proof.Gen.Pre_finite_inputs
import proofs.«150783_j2920577761328_1_alg».proof.Proof.Spec
import proofs.«150783_j2920577761328_1_alg».proof.Proof.RefValue
import proofs.«150783_j2920577761328_1_alg».proof.Proof.Blocks
import proofs.«150783_j2920577761328_1_alg».proof.Proof.Finite
import Idealize.ShloMosaic.Adequacy
import Idealize.ShloMosaic.Init

noncomputable section

namespace Cert.Proof

open Idealize.ShloMosaic Idealize.ShloMosaic.TcCoe Idealize.SL.Sem Cert.LinearAttention

/-- The word-level kernel runs and leaves its inputs as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is two host products: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals, on inputs all of whose entries are real, both programs end with the scores-first
    contraction of the inputs: the kernel with the moment-first one, which is the same array there. -/
theorem algebraic : Cert.algebraic_KernelIdeal_ReferenceIdeal := by
  intro m ρ m' ρ' hpre hagree
  refine ⟨fun c => scoresFirst (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩) (Blocks.run m ρ)
    obtain ⟨hq, hk, hv⟩ := Finite.allReal_of_pre _ _ _ (hpre c)
    exact momentFirst_eq_scoresFirst hq hk hv
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v1_eq, Ref.reference_eq_scoresFirst, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
